-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x100 : Shape := ⟨2, ![524288, 100]⟩
abbrev S524288 : Shape := ⟨1, ![524288]⟩
abbrev S100 : Shape := ⟨1, ![100]⟩
abbrev S_ : Shape := ⟨0, ![]⟩

class Facts : Prop where
  bcast_S_S524288x100 : S_.BroadcastsInDim S524288x100 (![] : Fin 0 → Fin S524288x100.rank)
  reducesTo_S524288x100_S_d0_1 : S524288x100.ReducesTo [0, 1] S_
  h_S_ : 0 < S_.numel
  bcast_S_S100 : S_.BroadcastsInDim S100 (![] : Fin 0 → Fin S100.rank)
  reducesTo_S100_S_d0 : S100.ReducesTo [0] S_
  bcast_S_S524288 : S_.BroadcastsInDim S524288 (![] : Fin 0 → Fin S524288.rank)
  reducesTo_S524288_S_d0 : S524288.ReducesTo [0] S_

variable [Facts]

def fn {F : FTy → Type} [FloatOps F] (main_arg0 : FVec F S524288x100 .f32) (main_arg1 : IVec S524288 32) (main_arg2 : FVec F S100 .f32) : IVec S_ 1 :=
  let main_v0 : FVec F S524288x100 .f32 := Host.absf main_arg0
  let main_cst : FVec F S_ .f32 := constant S_ .f32 0x7F800000#32
  let main_v1 : FVec F S524288x100 .f32 := broadcastInDim S524288x100 ![] bcast_S_S524288x100 main_cst
  let main_v2 : IVec S524288x100 1 := cmpf .olt main_v0 main_v1
  let main_c : IVec S_ 1 := constantI S_ 1 1#1
  let main_v3 : IVec S_ 1 := (fun x v => Host.reduce IntOp.andi x v reducesTo_S524288x100_S_d0_1 h_S_) main_v2 main_c
  let main_v4 : FVec F S100 .f32 := Host.absf main_arg2
  let main_cst_0 : FVec F S_ .f32 := constant S_ .f32 0x7F800000#32
  let main_v5 : FVec F S100 .f32 := broadcastInDim S100 ![] bcast_S_S100 main_cst_0
  let main_v6 : IVec S100 1 := cmpf .olt main_v4 main_v5
  let main_c_1 : IVec S_ 1 := constantI S_ 1 1#1
  let main_v7 : IVec S_ 1 := (fun x v => Host.reduce IntOp.andi x v reducesTo_S100_S_d0 h_S_) main_v6 main_c_1
  let main_v8 : IVec S_ 1 := andi main_v3 main_v7
  let main_c_2 : IVec S_ 32 := constantI S_ 32 0#32
  let main_v9 : IVec S524288 32 := broadcastInDim S524288 ![] bcast_S_S524288 main_c_2
  let main_v10 : IVec S524288 1 := cmpi .sge main_arg1 main_v9
  let main_c_3 : IVec S_ 32 := constantI S_ 32 100#32
  let main_v11 : IVec S524288 32 := broadcastInDim S524288 ![] bcast_S_S524288 main_c_3
  let main_v12 : IVec S524288 1 := cmpi .slt main_arg1 main_v11
  let main_v13 : IVec S524288 1 := andi main_v10 main_v12
  let main_c_4 : IVec S_ 1 := constantI S_ 1 1#1
  let main_v14 : IVec S_ 1 := (fun x v => Host.reduce IntOp.andi x v reducesTo_S524288_S_d0 h_S_) main_v13 main_c_4
  let main_v15 : IVec S_ 1 := andi main_v8 main_v14
  main_v15
-- ==== Kernel.lean ====
abbrev S524288x100 : Shape := ⟨2, ![524288, 100]⟩
abbrev S524288 : Shape := ⟨1, ![524288]⟩
abbrev S100 : Shape := ⟨1, ![100]⟩
abbrev S_ : Shape := ⟨0, ![]⟩
abbrev S1x100 : Shape := ⟨2, ![1, 100]⟩
abbrev S2x1x1 : Shape := ⟨3, ![2, 1, 1]⟩
abbrev S8192x100 : Shape := ⟨2, ![8192, 100]⟩
abbrev S8192 : Shape := ⟨1, ![8192]⟩
abbrev S1x1x1 : Shape := ⟨3, ![1, 1, 1]⟩
abbrev S8192x1 : Shape := ⟨2, ![8192, 1]⟩
abbrev S1 : Shape := ⟨1, ![1]⟩
abbrev S1x1 : Shape := ⟨2, ![1, 1]⟩

abbrev nBuf : Space → Nat
  | .hbm => 17
  | .vmem => 7
  | .smem => 0
  | _ => 0

abbrev bufTy : (tb : Table) → Fin (tcTables nBuf tb) → BufTy
  | .hbm, ⟨0, _⟩ => ⟨S524288x100, .f32⟩
  | .hbm, ⟨1, _⟩ => ⟨S524288, .i32⟩
  | .hbm, ⟨2, _⟩ => ⟨S100, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S524288, .i32⟩
  | .hbm, ⟨7, _⟩ => ⟨S524288, .i32⟩
  | .hbm, ⟨8, _⟩ => ⟨S_, .i32⟩
  | .hbm, ⟨9, _⟩ => ⟨S524288, .i32⟩
  | .hbm, ⟨10, _⟩ => ⟨S524288, .i32⟩
  | .hbm, ⟨11, _⟩ => ⟨S1x100, .f32⟩
  | .hbm, ⟨12, _⟩ => ⟨S2x1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S8192x100, .f32⟩
  | .local _ .vmem, ⟨1, _⟩ => ⟨S8192x100, .f32⟩
  | .local _ .vmem, ⟨2, _⟩ => ⟨S8192, .i32⟩
  | .local _ .vmem, ⟨3, _⟩ => ⟨S8192, .i32⟩
  | .local _ .vmem, ⟨4, _⟩ => ⟨S1x100, .f32⟩
  | .local _ .vmem, ⟨5, _⟩ => ⟨S1x1x1, .f32⟩
  | .local _ .vmem, ⟨6, _⟩ => ⟨S1x1x1, .f32⟩
  | _, _ => ⟨S524288x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S524288 : S_.BroadcastsInDim S524288 (![] : Fin 0 → Fin S524288.rank)
  shapeCasts_S100_S1x100 : S100.ShapeCasts S1x100
  inb_S1x1x1_S1x1x1_0_0_0 : ∀ a, (![0, 0, 0] : Fin 3 → Nat) a + S1x1x1.size a ≤ S1x1x1.size a
  h_S1x1x1 : 0 < S1x1x1.numel
  inb_S8192x100_S8192x100_0_0 : ∀ a, (![0, 0] : Fin 2 → Nat) a + S8192x100.size a ≤ S8192x100.size a
  h_S8192x100 : 0 < S8192x100.numel
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  inb_S1x100_S1x100_0_0 : ∀ a, (![0, 0] : Fin 2 → Nat) a + S1x100.size a ≤ S1x100.size a
  h_S1x100 : 0 < S1x100.numel
  shapeCasts_S1x100_S1x100 : S1x100.ShapeCasts S1x100
  iota_S8192x100_d1_w32 : S8192x100.Iotas .tc 32 [1]
  broadcasts_S8192x1_S8192x100 : S8192x1.Broadcasts S8192x100
  broadcasts_S1x100_S8192x100 : S1x100.Broadcasts S8192x100
  reduces_S8192x100_S8192 : S8192x100.Reduces [1] S8192
  reduces_S8192x1_S1 : S8192x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x100.size a ≤ S524288x100.size a
  hwx0_0 : ∀ i : grid0.Coords, EltTy.bits .f32 = 32 ∨ (Rect.block (s := S524288x100) S8192x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S524288.size a
  hwx0_1 : ∀ i : grid0.Coords, EltTy.bits .i32 = 32 ∨ (Rect.block (s := S524288) S8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg0) S8192x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x100 : Shape := ⟨2, ![524288, 100]⟩
abbrev S524288 : Shape := ⟨1, ![524288]⟩
abbrev S100 : Shape := ⟨1, ![100]⟩
abbrev S524288x1 : Shape := ⟨2, ![524288, 1]⟩
abbrev S1x100 : Shape := ⟨2, ![1, 100]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S524288x100, .f32⟩
  | .hbm, ⟨1, _⟩ => ⟨S524288, .i32⟩
  | .hbm, ⟨2, _⟩ => ⟨S100, .f32⟩
  | .hbm, ⟨3, _⟩ => ⟨S524288x1, .i32⟩
  | .hbm, ⟨4, _⟩ => ⟨S1x100, .i32⟩
  | .hbm, ⟨5, _⟩ => ⟨S524288x100, .i32⟩
  | .hbm, ⟨6, _⟩ => ⟨S524288x100, .i32⟩
  | .hbm, ⟨7, _⟩ => ⟨S524288x100, .i1⟩
  | .hbm, ⟨8, _⟩ => ⟨S524288x100, .f32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S524288x1, .i32⟩
  | .hbm, ⟨17, _⟩ => ⟨S524288, .f32⟩
  | .hbm, ⟨18, _⟩ => ⟨S524288x1, .f32⟩
  | .hbm, ⟨19, _⟩ => ⟨S_, .f32⟩
  | .hbm, ⟨20, _⟩ => ⟨S524288x100, .f32⟩
  | .hbm, ⟨21, _⟩ => ⟨S524288x100, .i1⟩
  | .hbm, ⟨22, _⟩ => ⟨S524288x100, .f32⟩
  | .hbm, ⟨23, _⟩ => ⟨S_, .f32⟩
  | .hbm, ⟨24, _⟩ => ⟨S524288x100, .f32⟩
  | .hbm, ⟨25, _⟩ => ⟨S524288x100, .f32⟩
  | .hbm, ⟨26, _⟩ => ⟨S524288x100, .f32⟩
  | .hbm, ⟨27, _⟩ => ⟨S524288x100, .f32⟩
  | .hbm, ⟨28, _⟩ => ⟨S524288x100, .f32⟩
  | .hbm, ⟨29, _⟩ => ⟨S_, .f32⟩
  | .hbm, ⟨30, _⟩ => ⟨S524288, .f32⟩
  | .hbm, ⟨31, _⟩ => ⟨S524288x1, .f32⟩
  | .hbm, ⟨32, _⟩ => ⟨S524288x100, .f32⟩
  | .hbm, ⟨33, _⟩ => ⟨S524288x100, .f32⟩
  | .hbm, ⟨34, _⟩ => ⟨S524288x100, .f32⟩
  | .hbm, ⟨35, _⟩ => ⟨S524288x100, .f32⟩
  | .hbm, ⟨36, _⟩ => ⟨S_, .f32⟩
  | .hbm, ⟨37, _⟩ => ⟨S524288, .f32⟩
  | .hbm, ⟨38, _⟩ => ⟨S_, .f32⟩
  | .hbm, ⟨39, _⟩ => ⟨S524288, .f32⟩
  | .hbm, ⟨40, _⟩ => ⟨S524288, .f32⟩
  | .hbm, ⟨41, _⟩ => ⟨S_, .f32⟩
  | .hbm, ⟨42, _⟩ => ⟨S524288, .f32⟩
  | .hbm, ⟨43, _⟩ => ⟨S524288, .f32⟩
  | .hbm, ⟨44, _⟩ => ⟨S524288, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S524288x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  bcast_S524288_S524288x1_0 : S524288.BroadcastsInDim S524288x1 (![0] : Fin 1 → Fin S524288x1.rank)
  bcast_S524288x1_S524288x100_0_1 : S524288x1.BroadcastsInDim S524288x100 (![0, 1] : Fin 2 → Fin S524288x100.rank)
  bcast_S1x100_S524288x100_0_1 : S1x100.BroadcastsInDim S524288x100 (![0, 1] : Fin 2 → Fin S524288x100.rank)
  bcast_S_S524288 : S_.BroadcastsInDim S524288 (![] : Fin 0 → Fin S524288.rank)
  bcast_S_S524288x100 : S_.BroadcastsInDim S524288x100 (![] : Fin 0 → Fin S524288x100.rank)
  reducesTo_S524288x100_S524288_d1 : S524288x100.ReducesTo [1] S524288
  h_S_ : 0 < S_.numel
  reducesTo_S524288_S_d0 : S524288.ReducesTo [0] S_
  gather_S100_S524288x1_S524288_n_0_n_n_0_1_1_wf : GatherDims.WF S100 S524288x1 S524288 [] [0] [] [0] [] 1 ![1]

variable [Facts₀]

def gather_S100_S524288x1_S524288_n_0_n_n_0_1_1 : GatherDims S100 S524288x1 S524288 where
  offsetDims := []
  collapsedSliceDims := [0]
  operandBatchingDims := []
  startIndicesBatchingDims := []
  startIndexMap := [0]
  indexVectorDim := 1
  sliceSizes := ![1]
  wf := gather_S100_S524288x1_S524288_n_0_n_n_0_1_1_wf

class Facts : Prop extends Facts₀ where

variable [Facts]
-- ==== Proof.PreFacts.lean ====
/-
  What the precondition says of the three inputs, entry by entry: every logit and every class weight is a
  real number, and every label is a class index below 100.
-/
import proofs.«421414_j25031069401300_3_alg».proof.Pre_finite_inputs
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx

/-- The f32 word with every exponent bit set and no fraction bit denotes +∞. -/
theorem inf_word : Ideal.ofBits .f32 0x7F800000#32 = (⊤ : EReal) := by
  simp [Ideal.ofBits, Ideal.ieee]

/-- An extended real whose absolute value max a (−a) lies below +∞ is neither +∞ nor −∞ (whose negation is +∞):
    it is a real number. -/
theorem real_of_abs_lt_top (a : EReal) (h : max a (-a) < (⊤ : EReal)) : ∃ r : ℝ, a = (r : EReal) := by
  induction a using EReal.rec with
  | bot => exact absurd h (by simp)
  | top => exact absurd h (by simp)
  | coe r => exact ⟨r, rfl⟩

/-- The comparison |a| < +∞ against the infinity word, having come out 1, read at one entry: a is real. -/
theorem real_of_cmp (a : EReal)
    (h : Ideal.cmp .olt (max a (-a)) (Ideal.ofBits .f32 0x7F800000#32) = 1#1) : ∃ r : ℝ, a = (r : EReal) := by
  refine real_of_abs_lt_top a ?_
  rw [inf_word] at h
  unfold Ideal.cmp at h
  by_contra hc
  simp [hc] at h

/-- A 32-bit word that is at least 0 and below 100 as a signed number is below 100 as a natural number: a word
    with its top bit set reads negative, so the first comparison leaves only words whose signed and unsigned
    readings agree. -/
theorem toNat_lt_hundred (w : BitVec 32) (h0 : IntOp.cmpi .sge w 0#32 = 1#1)
    (h1 : IntOp.cmpi .slt w 100#32 = 1#1) : w.toNat < 100 := by
  change BitVec.ofBool ((0#32 : BitVec 32).sle w) = 1#1 at h0
  change BitVec.ofBool (w.slt 100#32) = 1#1 at h1
  have ofBool_one : ∀ b : Bool, BitVec.ofBool b = 1#1 → b = true := by decide
  have a0 := ofBool_one _ h0
  have a1 := ofBool_one _ h1
  rw [BitVec.sle_iff_toInt_le] at a0
  rw [BitVec.slt_iff_toInt_lt] at a1
  have z : (0#32 : BitVec 32).toInt = 0 := by decide
  have c : (100#32 : BitVec 32).toInt = 100 := by decide
  rw [z] at a0
  rw [c] at a1
  have hw := w.isLt
  rw [BitVec.toInt_eq_toNat_cond] at a0 a1
  split at a0 <;> omega

/-- The elementwise "and" of two bit arrays, read at one index. -/
theorem andi_at {s : Shape} {w : Nat} (x y : IVec s w) (i : s.Idx) : andi x y i = IntOp.andi (x i) (y i) := rfl

/-- From the precondition evaluated to "true": real witnesses for the logits and the weights, and a class
    index for every label. -/
theorem pre_facts [Cert.Pre_finite_inputs.Facts]
    (x0 : FVec Ideal Cert.Pre_finite_inputs.S524288x100 .f32) (x1 : IVec Cert.Pre_finite_inputs.S524288 32)
    (x2 : FVec Ideal Cert.Pre_finite_inputs.S100 .f32)
    (h : Cert.Pre_finite_inputs.fn (F := Ideal) x0 x1 x2 = fun _ => 1#1) :
    (∃ P : Fin 524288 → Fin 100 → ℝ, ∀ R c, x0 (ix2 R c) = ((P R c : ℝ) : EReal))
    ∧ (∃ W : Fin 100 → ℝ, ∀ c, x2 (ix1 c) = ((W c : ℝ) : EReal))
    ∧ (∃ T : Fin 524288 → Fin 100, ∀ R, x1 (ix1 R) = BitVec.ofNat 32 (T R).val) := by
  -- the predicate's one entry is 1: the three conjuncts are each 1
  have e := congrFun h ix0
  dsimp only [Cert.Pre_finite_inputs.fn] at e
  rw [andi_at, andi_at, IntOp.andi_eq_one, IntOp.andi_eq_one] at e
  obtain ⟨⟨e0, e2⟩, e1⟩ := e
  haveI : Subsingleton Cert.Pre_finite_inputs.S_.Idx := ⟨fun a b => funext fun d => d.elim0⟩
  refine ⟨?_, ?_, ?_⟩
  · -- the logits
    have key : ∀ (R : Fin 524288) (c : Fin 100), ∃ r : ℝ, x0 (ix2 R c) = (r : EReal) := fun R c =>
      real_of_cmp _ (Host.reduce_andi_all _ _ _ _ _ e0 (ix2 R c))
    choose P hP using key
    exact ⟨P, hP⟩
  · -- the class weights
    have key : ∀ c : Fin 100, ∃ r : ℝ, x2 (ix1 c) = (r : EReal) := fun c =>
      real_of_cmp _ (Host.reduce_andi_all _ _ _ _ _ e2 (ix1 c))
    choose W hW using key
    exact ⟨W, hW⟩
  · -- the labels
    have key : ∀ R : Fin 524288, (x1 (ix1 R)).toNat < 100 := fun R => by
      have b := Host.reduce_andi_all _ _ _ _ _ e1 (ix1 R)
      rw [andi_at, IntOp.andi_eq_one] at b
      exact toNat_lt_hundred _ b.1 b.2
    refine ⟨fun R => ⟨(x1 (ix1 R)).toNat, key R⟩, fun R => ?_⟩
    apply BitVec.eq_of_toNat_eq
    show (x1 (ix1 R)).toNat = (BitVec.ofNat 32 (x1 (ix1 R)).toNat).toNat
    rw [BitVec.toNat_ofNat, Nat.mod_eq_of_lt (x1 (ix1 R)).isLt]

end Cert.PreFacts

end
-- ==== Proof.LossSpec.lean ====
/-
  The loss of one row, as each program computes it over the extended reals, written once so that
  the kernel's side, the reference's side and the algebra between them speak of the same terms.

  A row has logits `p c` (c < 100), a label `t` (a 32-bit word) and class weights `w c`.

  The kernel forms  w_t · (Σ_c e⁺(p c) − e⁺(p t)) / Σ_c e^(p c),  where e⁺(x) is e^x for x > 0 and 0
  otherwise, the label's entry of a vector picked out by summing the vector masked to the label.

  The reference first subtracts the row's maximum M from every logit and forms
  Σ_c e^(p c − M) · ((1 − [t = c]) · w_t · [p c > 0]) / Σ_c e^(p c − M).

  Both then add the same small constant and take the logarithm.
-/
import Idealize.ShloMosaic.PureOps.Ideal.Laws

noncomputable section

namespace Cert.LossSpec

open Idealize.ShloMosaic

/-- The additive constant under the logarithm: the f32 word nearest 1e-7, the same word in both programs. -/
abbrev epsE : EReal := Ideal.ofBits .f32 0x33D6BF95#32

/-- The divisor of the final mean: the f32 word of 524288 = 2^19, the same word in both programs. -/
abbrev rowsE : EReal := Ideal.ofBits .f32 0x49000000#32

/-- `e^x` where `x > 0`, and `0` elsewhere. -/
def posExp (x : EReal) : EReal := if 0 < x then Ideal.exp x else 0

/-- The kernel's loss of one row. -/
def kRow (p : Fin 100 → EReal) (t : BitVec 32) (w : Fin 100 → EReal) : EReal :=
  Ideal.log (Ideal.div
      ((∑ c : Fin 100, if BitVec.ofNat 32 c.val = t then w c else 0)
        * ((∑ c : Fin 100, posExp (p c)) - ∑ c : Fin 100, if BitVec.ofNat 32 c.val = t then posExp (p c) else 0))
      (∑ c : Fin 100, Ideal.exp (p c))
    + epsE)

/-- The reference's loss of one row: `wt` the weight it gathered at the label, `M` the row's maximum. -/
def rRow (p : Fin 100 → EReal) (t : BitVec 32) (wt M : EReal) : EReal :=
  Ideal.log (Ideal.div
      (∑ c : Fin 100, Ideal.exp (p c - M)
        * (((1 - (if t = BitVec.ofNat 32 c.val then (1 : EReal) else 0)) * wt) * (if 0 < p c then (1 : EReal) else 0)))
      (∑ c : Fin 100, Ideal.exp (p c - M))
    + epsE)

/-- The mean over all 524288 rows of a per-row loss. -/
def meanLoss (f : Fin 524288 → EReal) : EReal := Ideal.div (∑ R : Fin 524288, f R) rowsE

end Cert.LossSpec

end
-- ==== Proof.LossMath.lean ====
/-
  The algebra joining the two programs' losses of one row, and the regrouping of the sum over all rows
  into the blocks the kernel's grid visits.
-/
import proofs.«421414_j25031069401300_3_alg».proof.Proof.LossSpec

noncomputable section

namespace Cert.LossMath

open Idealize.ShloMosaic Cert.LossSpec

/-- The coercion of a finite sum of real numbers is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Two class indices have the same 32-bit word exactly when they are the same index. -/
theorem ofNat_eq_iff (c T : Fin 100) : BitVec.ofNat 32 c.val = BitVec.ofNat 32 T.val ↔ c = T := by
  constructor
  · intro h
    have h' := congrArg BitVec.toNat h
    simp only [BitVec.toNat_ofNat] at h'
    have hc := c.isLt
    have hT := T.isLt
    apply Fin.ext
    omega
  · rintro rfl
    rfl

/-- A vector masked to the label and summed is the label's entry. -/
theorem sum_mask (T : Fin 100) (g : Fin 100 → EReal) :
    (∑ c : Fin 100, if BitVec.ofNat 32 c.val = BitVec.ofNat 32 T.val then g c else 0) = g T := by
  have h : ∀ c ∈ (Finset.univ : Finset (Fin 100)),
      (if BitVec.ofNat 32 c.val = BitVec.ofNat 32 T.val then g c else 0) = if c = T then g c else 0 :=
    fun c _ => if_congr (ofNat_eq_iff c T) rfl rfl
  rw [Finset.sum_congr rfl h, Finset.sum_ite_eq', if_pos (Finset.mem_univ T)]

/-- The one-sided exponential of a real number is a real number. -/
theorem posExp_coe (x : ℝ) :
    posExp (x : EReal) = ((if 0 < x then Real.exp x else 0 : ℝ) : EReal) := by
  unfold posExp
  by_cases h : 0 < x
  · have h' : (0 : EReal) < (x : EReal) := EReal.coe_pos.mpr h
    rw [if_pos h', if_pos h, Ideal.exp_coe]
  · have h' : ¬ (0 : EReal) < (x : EReal) := fun hx => h (EReal.coe_pos.mp hx)
    rw [if_neg h', if_neg h, EReal.coe_zero]

/-- The quotient of two real numbers, the divisor not zero, is the real quotient. -/
theorem div_coe_coe (a b : ℝ) (hb : b ≠ 0) :
    Ideal.div (a : EReal) (b : EReal) = ((a / b : ℝ) : EReal) := by
  rw [Ideal.div_coe hb, ← EReal.coe_mul, mul_one_div]

/-- One term of the reference's numerator, all of its factors real, is a real number. -/
theorem ref_term (P : Fin 100 → ℝ) (T : Fin 100) (W : Fin 100 → ℝ) (M : ℝ) (c : Fin 100) :
    Ideal.exp ((P c : EReal) - (M : EReal))
        * (((1 - (if BitVec.ofNat 32 T.val = BitVec.ofNat 32 c.val then (1 : EReal) else 0)) * ((W T : ℝ) : EReal))
            * (if (0 : EReal) < (P c : EReal) then (1 : EReal) else 0))
      = ((Real.exp (P c - M)
            * (((1 - (if T = c then (1 : ℝ) else 0)) * W T) * (if 0 < P c then (1 : ℝ) else 0)) : ℝ) : EReal) := by
  have h1 : (if BitVec.ofNat 32 T.val = BitVec.ofNat 32 c.val then (1 : EReal) else 0)
      = ((if T = c then (1 : ℝ) else 0 : ℝ) : EReal) := by
    rw [if_congr (ofNat_eq_iff T c) rfl rfl]
    by_cases h : T = c
    · rw [if_pos h, if_pos h, EReal.coe_one]
    · rw [if_neg h, if_neg h, EReal.coe_zero]
  have h2 : (if (0 : EReal) < (P c : EReal) then (1 : EReal) else 0)
      = ((if 0 < P c then (1 : ℝ) else 0 : ℝ) : EReal) := by
    rw [if_congr (EReal.coe_pos (x := P c)) rfl rfl]
    by_cases h : 0 < P c
    · rw [if_pos h, if_pos h, EReal.coe_one]
    · rw [if_neg h, if_neg h, EReal.coe_zero]
  rw [h1, h2, ← EReal.coe_sub, Ideal.exp_coe, ← EReal.coe_one, ← EReal.coe_sub, ← EReal.coe_mul,
    ← EReal.coe_mul, ← EReal.coe_mul]

/-- The identity between the two quotients, in the real numbers: the factor e^(−M), positive, is common to the
    reference's numerator and divisor, and the reference's mask 1 − [t = c] takes the label's entry out of the sum. -/
theorem real_identity (P : Fin 100 → ℝ) (T : Fin 100) (W : Fin 100 → ℝ) (M : ℝ) :
    W T * ((∑ c : Fin 100, (if 0 < P c then Real.exp (P c) else 0)) - (if 0 < P T then Real.exp (P T) else 0))
        / ∑ c : Fin 100, Real.exp (P c)
      = (∑ c : Fin 100, Real.exp (P c - M)
            * (((1 - (if T = c then (1 : ℝ) else 0)) * W T) * (if 0 < P c then (1 : ℝ) else 0)))
        / ∑ c : Fin 100, Real.exp (P c - M) := by
  have hE : Real.exp (-M) ≠ 0 := (Real.exp_pos _).ne'
  have hden : ∑ c : Fin 100, Real.exp (P c - M) = Real.exp (-M) * ∑ c : Fin 100, Real.exp (P c) := by
    rw [Finset.mul_sum]
    refine Finset.sum_congr rfl (fun c _ => ?_)
    rw [sub_eq_add_neg, Real.exp_add, mul_comm]
  have hterm : ∀ c : Fin 100,
      Real.exp (P c - M) * (((1 - (if T = c then (1 : ℝ) else 0)) * W T) * (if 0 < P c then (1 : ℝ) else 0))
        = Real.exp (-M) * (W T * ((if 0 < P c then Real.exp (P c) else 0)
            - (if T = c then (if 0 < P c then Real.exp (P c) else 0) else 0))) := by
    intro c
    rw [sub_eq_add_neg, Real.exp_add]
    by_cases h1 : T = c
    · by_cases h2 : 0 < P c
      · rw [if_pos h1, if_pos h2, if_pos h1, if_pos h2]; ring
      · rw [if_pos h1, if_neg h2, if_pos h1, if_neg h2]; ring
    · by_cases h2 : 0 < P c
      · rw [if_neg h1, if_pos h2, if_neg h1, if_pos h2]; ring
      · rw [if_neg h1, if_neg h2, if_neg h1, if_neg h2]; ring
  have hnum : (∑ c : Fin 100, Real.exp (P c - M)
            * (((1 - (if T = c then (1 : ℝ) else 0)) * W T) * (if 0 < P c then (1 : ℝ) else 0)))
      = Real.exp (-M) * (W T * ((∑ c : Fin 100, (if 0 < P c then Real.exp (P c) else 0))
          - (if 0 < P T then Real.exp (P T) else 0))) := by
    rw [Finset.sum_congr rfl (fun c _ => hterm c), ← Finset.mul_sum, ← Finset.mul_sum, Finset.sum_sub_distrib,
      Finset.sum_ite_eq, if_pos (Finset.mem_univ T)]
  rw [hnum, hden, mul_div_mul_left _ _ hE]

/-- On a row of real logits and real weights, with the label a class index, the kernel's loss of the row is the
    reference's, whatever real number `M` the reference shifts the logits by. -/
theorem kRow_eq_rRow (P : Fin 100 → ℝ) (T : Fin 100) (W : Fin 100 → ℝ) (M : ℝ) :
    kRow (fun c => (P c : EReal)) (BitVec.ofNat 32 T.val) (fun c => (W c : EReal))
      = rRow (fun c => (P c : EReal)) (BitVec.ofNat 32 T.val) ((W T : ℝ) : EReal) ((M : ℝ) : EReal) := by
  -- the kernel's side: weight at the label, the one-sided exponentials, the plain exponentials
  have hS : (∑ c : Fin 100, Real.exp (P c)) ≠ 0 :=
    (Finset.sum_pos (fun c _ => Real.exp_pos (P c)) ⟨(0 : Fin 100), Finset.mem_univ _⟩).ne'
  have hS' : (∑ c : Fin 100, Real.exp (P c - M)) ≠ 0 :=
    (Finset.sum_pos (fun c _ => Real.exp_pos (P c - M)) ⟨(0 : Fin 100), Finset.mem_univ _⟩).ne'
  have hKw : (∑ c : Fin 100, if BitVec.ofNat 32 c.val = BitVec.ofNat 32 T.val then (W c : EReal) else 0)
      = (W T : EReal) := sum_mask T (fun c => (W c : EReal))
  have hKq : (∑ c : Fin 100, posExp (P c : EReal))
      = ((∑ c : Fin 100, (if 0 < P c then Real.exp (P c) else 0) : ℝ) : EReal) := by
    rw [coe_sum]
    exact Finset.sum_congr rfl (fun c _ => posExp_coe (P c))
  have hKt : (∑ c : Fin 100, if BitVec.ofNat 32 c.val = BitVec.ofNat 32 T.val then posExp (P c : EReal) else 0)
      = ((if 0 < P T then Real.exp (P T) else 0 : ℝ) : EReal) :=
    (sum_mask T (fun c => posExp (P c : EReal))).trans (posExp_coe (P T))
  have hKd : (∑ c : Fin 100, Ideal.exp (P c : EReal)) = ((∑ c : Fin 100, Real.exp (P c) : ℝ) : EReal) := by
    rw [coe_sum]
    exact Finset.sum_congr rfl (fun c _ => Ideal.exp_coe (P c))
  -- the reference's side
  have hRn : (∑ c : Fin 100, Ideal.exp ((P c : EReal) - (M : EReal))
        * (((1 - (if BitVec.ofNat 32 T.val = BitVec.ofNat 32 c.val then (1 : EReal) else 0)) * ((W T : ℝ) : EReal))
            * (if (0 : EReal) < (P c : EReal) then (1 : EReal) else 0)))
      = ((∑ c : Fin 100, Real.exp (P c - M)
            * (((1 - (if T = c then (1 : ℝ) else 0)) * W T) * (if 0 < P c then (1 : ℝ) else 0)) : ℝ) : EReal) := by
    rw [coe_sum]
    exact Finset.sum_congr rfl (fun c _ => ref_term P T W M c)
  have hRd : (∑ c : Fin 100, Ideal.exp ((P c : EReal) - (M : EReal)))
      = ((∑ c : Fin 100, Real.exp (P c - M) : ℝ) : EReal) := by
    rw [coe_sum]
    refine Finset.sum_congr rfl (fun c _ => ?_)
    rw [← EReal.coe_sub, Ideal.exp_coe]
  show Ideal.log (Ideal.div
      ((∑ c : Fin 100, if BitVec.ofNat 32 c.val = BitVec.ofNat 32 T.val then (W c : EReal) else 0)
        * ((∑ c : Fin 100, posExp (P c : EReal))
            - ∑ c : Fin 100, if BitVec.ofNat 32 c.val = BitVec.ofNat 32 T.val then posExp (P c : EReal) else 0))
      (∑ c : Fin 100, Ideal.exp (P c : EReal)) + epsE)
    = Ideal.log (Ideal.div
      (∑ c : Fin 100, Ideal.exp ((P c : EReal) - (M : EReal))
        * (((1 - (if BitVec.ofNat 32 T.val = BitVec.ofNat 32 c.val then (1 : EReal) else 0)) * ((W T : ℝ) : EReal))
            * (if (0 : EReal) < (P c : EReal) then (1 : EReal) else 0)))
      (∑ c : Fin 100, Ideal.exp ((P c : EReal) - (M : EReal))) + epsE)
  rw [hKw, hKq, hKt, hKd, hRn, hRd, ← EReal.coe_sub, ← EReal.coe_mul, div_coe_coe _ _ hS, div_coe_coe _ _ hS',
    real_identity P T W M]

/-- The sum over all 524288 rows is the sum over the 64 blocks of 8192 consecutive rows of each block's sum. -/
theorem sum_rows_blocks (f : Fin 524288 → EReal) :
    ∑ R : Fin 524288, f R
      = ∑ t : Fin 64, ∑ r : Fin 8192, f ⟨8192 * t.val + r.val, by have := t.isLt; have := r.isLt; omega⟩ := by
  have key : ∑ x : Fin 64 × Fin 8192,
        f ⟨8192 * x.1.val + x.2.val, by have := x.1.isLt; have := x.2.isLt; omega⟩
      = ∑ R : Fin 524288, f R :=
    Fintype.sum_equiv (finProdFinEquiv : Fin 64 × Fin 8192 ≃ Fin 524288) _ _ (fun x => congrArg f (Fin.ext (by
      show 8192 * x.1.val + x.2.val = x.2.val + 8192 * x.1.val
      omega)))
  exact key.symm.trans (Fintype.sum_prod_type _)

end Cert.LossMath

end
-- ==== Proof.RefValue.lean ====
/-
  The reference's result, read back operation by operation: the mean over all rows of the reference's
  loss of each row, the row's maximum a real number because the logits are.
-/
import proofs.«421414_j25031069401300_3_alg».proof.Proof.Gen.ReferenceIdeal.Read
import proofs.«421414_j25031069401300_3_alg».proof.Proof.LossSpec
import Idealize.ShloMosaic.Lib.ValueIdx

noncomputable section

namespace Cert.RefValue

open Idealize.ShloMosaic Idealize.ShloMosaic.ValueIdx Cert.LossSpec Cert.ReferenceIdeal

open Cert.ReferenceIdeal.Read

/-! ## Words -/

/-- A class index, as a 32-bit word, is not negative. -/
theorem slt_zero (t : Fin 100) : IntOp.cmpi .slt (BitVec.ofNat 32 t.val) 0#32 = 0#1 := by
  revert t; decide

/-- A class index, as a 32-bit word read signed, is itself. -/
theorem toInt_toNat (t : Fin 100) : (BitVec.ofNat 32 t.val).toInt.toNat = t.val := by
  revert t; decide

/-- A one-bit word converted to a float is the indicator of the bit. -/
theorem uitofp_ofBool (q : Bool) :
    FloatOps.uitofp (F := Ideal) .f32 (BitVec.ofBool q) = if q then (1 : EReal) else 0 := by
  cases q
  · show (((BitVec.ofBool false).toNat : ℝ) : EReal) = _
    simp
  · show (((BitVec.ofBool true).toNat : ℝ) : EReal) = _
    simp

/-- The f32 word `0x3F800000` is the number 1. -/
theorem one_word : Ideal.ofBits .f32 0x3F800000#32 = 1 := IdealRules.sign_bit.ideal_onePat .f32

/-! ## Indices: an element `(R, c)` of the full array reads row `R` of every per-row array -/

theorem idx_onehot_row (R : Fin 524288) (c : Fin 100) :
    idx_main_call0_v0 (idx_main_call0_v2 (ix2 R c)) = ix1 R := by
  funext a; match a with | ⟨0, _⟩ => rfl

theorem idx_w_row (R : Fin 524288) (c : Fin 100) : idx_main_v8 (idx_main_v14 (ix2 R c)) = ix1 R := by
  funext a; match a with | ⟨0, _⟩ => rfl

theorem idx_max_row (R : Fin 524288) (c : Fin 100) : idx_main_v18 (idx_main_v19 (ix2 R c)) = ix1 R := by
  funext a; match a with | ⟨0, _⟩ => rfl

theorem idx_label_row (R : Fin 524288) : idx_main_v6 (ix2 R (0 : Fin 1)) = ix1 R := by
  funext a; match a with | ⟨0, _⟩ => rfl

theorem idx_sum23 (R : Fin 524288) (c : Fin 100) : idx_main_v23 (ix1 R) c = ix2 R c := by
  funext a; match a with | ⟨0, _⟩ => rfl | ⟨1, _⟩ => rfl

theorem idx_sum24 (R : Fin 524288) (c : Fin 100) : idx_main_v24 (ix1 R) c = ix2 R c := by
  funext a; match a with | ⟨0, _⟩ => rfl | ⟨1, _⟩ => rfl

/-! ## The element-wise arrays at `(R, c)` -/

/-- The one-hot array: 1 where the row's label is the class. -/
theorem onehot_at (x1 : IVec S524288 32) (R : Fin 524288) (c : Fin 100) :
    val_main_v0 (F := Ideal) x1 (ix2 R c) = if x1 (ix1 R) = BitVec.ofNat 32 c.val then (1 : EReal) else 0 := by
  rw [val_main_v0_apply, val_main_call0_v4_apply, val_main_call0_v2_apply, val_main_call0_v0_apply,
    val_main_call0_v3_apply, val_main_call0_v1_apply, idx_onehot_row]
  show FloatOps.uitofp (F := Ideal) .f32 (BitVec.ofBool (x1 (ix1 R) == BitVec.ofNat 32 c.val)) = _
  rw [uitofp_ofBool]
  simp only [beq_iff_eq]

/-- The mask of positive logits. -/
theorem pos_at (x0 : FVec Ideal S524288x100 .f32) (R : Fin 524288) (c : Fin 100) :
    val_main_v11 (F := Ideal) x0 (ix2 R c) = if 0 < x0 (ix2 R c) then (1 : EReal) else 0 := by
  rw [val_main_v11_apply, val_main_v10_apply, val_main_v9_apply, val_main_cst_apply]
  show FloatOps.uitofp (F := Ideal) .f32 (BitVec.ofBool (decide (Ideal.ofBits .f32 0x00000000#32 < x0 (ix2 R c)))) = _
  rw [uitofp_ofBool, Ideal.ofBits_zero_f32]
  simp only [decide_eq_true_eq]

/-- The row's shift, broadcast along the row. -/
theorem shift_at (x0 : FVec Ideal S524288x100 .f32) (R : Fin 524288) (c : Fin 100) :
    val_main_v19 (F := Ideal) x0 (ix2 R c) = val_main_v17 (F := Ideal) x0 (ix1 R) := by
  rw [val_main_v19_apply, val_main_v18_apply, idx_max_row]

/-- The exponential of the shifted logit. -/
theorem exp_at (x0 : FVec Ideal S524288x100 .f32) (R : Fin 524288) (c : Fin 100) :
    val_main_v21 (F := Ideal) x0 (ix2 R c)
      = Ideal.exp (x0 (ix2 R c) - val_main_v17 (F := Ideal) x0 (ix1 R)) := by
  rw [val_main_v21_apply, val_main_v20_apply, shift_at]
  rfl

/-- The gathered weight, broadcast along the row. -/
theorem w_at (x1 : IVec S524288 32) (x2 : FVec Ideal S100 .f32) (R : Fin 524288) (c : Fin 100) :
    val_main_v14 (F := Ideal) x1 x2 (ix2 R c) = val_main_v7 (F := Ideal) x1 x2 (ix1 R) := by
  rw [val_main_v14_apply, val_main_v8_apply, idx_w_row]

/-! ## The gathered weight -/

/-- The label after the negative-index wrap is the label itself: a class index is not negative. -/
theorem wrap_at (x1 : IVec S524288 32) (R : Fin 524288) (t : Fin 100)
    (ht : x1 (ix1 R) = BitVec.ofNat 32 t.val) :
    val_main_v5 (F := Ideal) x1 (ix1 R) = BitVec.ofNat 32 t.val := by
  rw [val_main_v5_apply, val_main_v2_apply, val_main_v1_apply, val_main_c_apply, ht, slt_zero, select_zero]

/-- The start index of row `R`'s gather is the row's label. -/
theorem label_at (x1 : IVec S524288 32) (R : Fin 524288) (t : Fin 100)
    (ht : x1 (ix1 R) = BitVec.ofNat 32 t.val) :
    val_main_v6 (F := Ideal) x1 (ix2 R (0 : Fin 1)) = BitVec.ofNat 32 t.val := by
  rw [val_main_v6_apply, idx_label_row, wrap_at x1 R t ht]

/-- A gather of one element per row from a vector of 100 entries, the row's start index a class index `t`:
    the entry `t` (the start index read signed is `t`, and the clamp into `[0, 99]` leaves it). -/
theorem gather_row (x2 : FVec Ideal S100 .f32) (idx : IVec S524288x1 32) (R : Fin 524288) (t : Fin 100)
    (h : idx (ix2 R (0 : Fin 1)) = BitVec.ofNat 32 t.val) :
    Host.gather gather_S100_S524288x1_S524288_n_0_n_n_0_1_1 x2 idx (ix1 R) = x2 (ix1 t) := by
  unfold Host.gather
  congr 1
  funext a
  obtain rfl : a = 0 := Subsingleton.elim _ _
  refine Fin.ext ?_
  show gather_S100_S524288x1_S524288_n_0_n_n_0_1_1.start (ix1 R) idx 0
      + gather_S100_S524288x1_S524288_n_0_n_n_0_1_1.batchCoord (ix1 R) 0
      + gather_S100_S524288x1_S524288_n_0_n_n_0_1_1.offCoord (ix1 R) 0 = t.val
  rw [GatherDims.batchCoord_eq_zero _ _ _ (show (0 : Fin S100.rank) ∉ ([] : List (Fin S100.rank)) from List.not_mem_nil),
    GatherDims.offCoord_eq_zero _ _ _ (fun h => ((GatherDims.mem_sKept _ _).mp h).1
      (show (0 : Fin S100.rank) ∈ ([0] : List (Fin S100.rank)) from List.mem_singleton.mpr rfl))]
  simp only [Nat.add_zero]
  unfold GatherDims.start
  rw [dif_pos (show (0 : Fin S100.rank) ∈ gather_S100_S524288x1_S524288_n_0_n_n_0_1_1.startIndexMap
    from List.mem_singleton.mpr rfl)]
  have hsi : gather_S100_S524288x1_S524288_n_0_n_n_0_1_1.siIdx (ix1 R)
      ⟨List.idxOf (0 : Fin S100.rank) gather_S100_S524288x1_S524288_n_0_n_n_0_1_1.startIndexMap,
        List.idxOf_lt_length_iff.2 (List.mem_singleton.mpr rfl)⟩ = ix2 R (0 : Fin 1) := by
    funext b; refine Fin.ext ?_
    match b with
    | ⟨0, _⟩ => rfl
    | ⟨1, _⟩ => rfl
  rw [hsi, h, toInt_toNat]
  show min t.val (100 - 1) = t.val
  have := t.isLt
  omega

/-- The reference's gathered weight of row `R` is the weight of the row's label. -/
theorem gather_at (x1 : IVec S524288 32) (x2 : FVec Ideal S100 .f32) (R : Fin 524288) (t : Fin 100)
    (ht : x1 (ix1 R) = BitVec.ofNat 32 t.val) :
    val_main_v7 (F := Ideal) x1 x2 (ix1 R) = x2 (ix1 t) := by
  unfold val_main_v7
  have h6 := label_at x1 R t ht
  generalize val_main_v6 (F := Ideal) x1 = y6 at h6
  exact gather_row x2 y6 R t h6

/-! ## The row's maximum -/

/-- The word of the reduction's initial value is `-∞`. -/
theorem neg_inf_word : Ideal.ofBits .f32 0xFF800000#32 = ⊥ := by
  simp [Ideal.ofBits, Ideal.ieee]

/-- The fold of `max` from `-∞` over finitely many real numbers is `-∞` over no number and a real number otherwise. -/
theorem fold_max_cases {ι : Type} (f : ι → EReal) (hf : ∀ k, ∃ r : ℝ, f k = r) (s : Finset ι) :
    (s = ∅ ∧ s.fold (FloatOps.maximumf (F := Ideal) (φ := .f32)) ⊥ f = ⊥)
      ∨ ∃ r : ℝ, s.fold (FloatOps.maximumf (F := Ideal) (φ := .f32)) ⊥ f = r := by
  classical
  induction s using Finset.induction_on with
  | empty => exact Or.inl ⟨rfl, Finset.fold_empty⟩
  | insert a s ha ih =>
    right
    obtain ⟨r, hr⟩ := hf a
    rw [Finset.fold_insert ha, hr, Ideal.maximumf_def]
    rcases ih with ⟨_, h0⟩ | ⟨r', h'⟩
    · exact ⟨r, by rw [h0, max_bot_right]⟩
    · exact ⟨max r r', by rw [h']; exact (EReal.coe_strictMono.monotone.map_max).symm⟩

/-- The maximum of a row of real logits is a real number. -/
theorem max_real (x0 : FVec Ideal S524288x100 .f32) (hx : ∀ j : S524288x100.Idx, ∃ r : ℝ, x0 j = r)
    (R : Fin 524288) : ∃ m : ℝ, val_main_v17 (F := Ideal) x0 (ix1 R) = m := by
  unfold val_main_v17
  have hred : S524288x100.Reduces [1] S524288 := by decide
  rw [Host.reduce_eq_fold_single _ _ _ _ hred]
  rw [val_main_cst_2_apply, Ideal.ofBits_def, neg_inf_word]
  rcases fold_max_cases (x0 ∘ hred.lift (ix1 R)) (fun k => hx _) Finset.univ with ⟨he, _⟩ | h
  · exact absurd he (Finset.univ_nonempty (α := Fin 100)).ne_empty
  · exact h

/-! ## One row, then the mean over the rows -/

/-- The reference's loss of row `R`: the logarithm of the masked share of the shifted exponentials, plus the constant. -/
theorem row_at (x0 : FVec Ideal S524288x100 .f32) (x1 : IVec S524288 32) (x2 : FVec Ideal S100 .f32)
    (R : Fin 524288) (p : Fin 100 → EReal) (hp : ∀ c, x0 (ix2 R c) = p c)
    (t : Fin 100) (ht : x1 (ix1 R) = BitVec.ofNat 32 t.val) (wt : EReal) (hw : x2 (ix1 t) = wt)
    (M : EReal) (hM : val_main_v17 (F := Ideal) x0 (ix1 R) = M) :
    val_main_v28 (F := Ideal) x0 x1 x2 (ix1 R) = rRow p (BitVec.ofNat 32 t.val) wt M := by
  have hnum : ∑ k : Fin 100, val_main_v22 (F := Ideal) x0 x1 x2 (idx_main_v23 (ix1 R) k)
      = ∑ c : Fin 100, Ideal.exp (p c - M)
          * (((1 - (if BitVec.ofNat 32 t.val = BitVec.ofNat 32 c.val then (1 : EReal) else 0)) * wt)
              * (if 0 < p c then (1 : EReal) else 0)) :=
    Finset.sum_congr rfl fun c _ => by
      rw [idx_sum23, val_main_v22_apply, val_main_v16_apply, val_main_v15_apply, val_main_v13_apply,
        val_main_v12_apply, val_main_cst_1_apply, exp_at, onehot_at, w_at, gather_at x1 x2 R t ht, pos_at,
        hp, hM, ht, hw]
      simp only [Ideal.mulf_def, Ideal.subf_def, Ideal.ofBits_def, one_word]
  have hden : ∑ k : Fin 100, val_main_v21 (F := Ideal) x0 (idx_main_v24 (ix1 R) k)
      = ∑ c : Fin 100, Ideal.exp (p c - M) :=
    Finset.sum_congr rfl fun c _ => by rw [idx_sum24, exp_at, hp, hM]
  rw [val_main_v28_apply, val_main_v27_apply, val_main_v25_apply, val_main_v26_apply, val_main_cst_5_apply,
    val_main_v23_apply, val_main_v24_apply, val_main_cst_3_apply, val_main_cst_4_apply, hnum, hden]
  simp only [Ideal.hostUnary_log_def, Ideal.addf_def, Ideal.hostDivf_def, Ideal.ofBits_def, Ideal.ofBits_zero_f32,
    zero_add]
  rfl

/-- A rank-1 index of the row array is its one coordinate. -/
def rowEquiv : Fin 524288 ≃ S524288.Idx where
  toFun R := ix1 R
  invFun j := j 0
  left_inv _ := rfl
  right_inv j := (eq_ix1 j).symm

/-- With real logits `P`, real weights `W` and labels that are class indices `T`, the reference's result is the mean
    of its per-row loss, each row shifted by some real number (its maximum). -/
theorem ref_value
    (x0 : FVec Ideal S524288x100 .f32) (x1 : IVec S524288 32) (x2 : FVec Ideal S100 .f32)
    (P : Fin 524288 → Fin 100 → ℝ) (hP : ∀ R c, x0 (ix2 R c) = ((P R c : ℝ) : EReal))
    (W : Fin 100 → ℝ) (hW : ∀ c, x2 (ix1 c) = ((W c : ℝ) : EReal))
    (T : Fin 524288 → Fin 100) (hT : ∀ R, x1 (ix1 R) = BitVec.ofNat 32 (T R).val) :
    ∃ M : Fin 524288 → ℝ,
      Cert.ReferenceIdeal.Read.val_main_v30 (F := Ideal) x0 x1 x2
        = fun _ => meanLoss fun R =>
            rRow (fun c => ((P R c : ℝ) : EReal)) (BitVec.ofNat 32 (T R).val) ((W (T R) : ℝ) : EReal) ((M R : ℝ) : EReal) := by
  have hx : ∀ j : S524288x100.Idx, ∃ r : ℝ, x0 j = r :=
    fun j => ⟨_, (congrArg x0 (eq_ix2 j)).trans (hP _ _)⟩
  choose M hM using max_real x0 hx
  refine ⟨M, funext fun i => ?_⟩
  show val_main_v30 (F := Ideal) x0 x1 x2 i = meanLoss _
  rw [val_main_v30_apply, val_main_v29_apply, val_main_cst_6_apply, val_main_cst_7_apply]
  simp only [Ideal.hostDivf_def, Ideal.ofBits_def, Ideal.ofBits_zero_f32, zero_add]
  unfold meanLoss
  refine congrArg (fun s => Ideal.div s rowsE) ?_
  refine (Fintype.sum_equiv rowEquiv _ _ fun R => ?_).symm
  exact (row_at x0 x1 x2 R _ (fun c => hP R c) (T R) (hT R) _ (hW (T R)) _ (hM R)).symm

end Cert.RefValue

end
-- ==== Proof.BodyPieces.lean ====
/-
  What each control case of the body leaves in the one-entry accumulator block.
-/
import proofs.«421414_j25031069401300_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- At a point that is not the first of its core's run the body adds the block's partial sum to what the
    accumulator block held: its one store writes that sum over the value it loaded. -/
theorem out_B (c : Dev nD) (i : grid0.Coords) (a2 : Memref sig .tc .vmem S8192x100 .f32) (h2 : a2.IsWhole)
    (a3 : Memref sig .tc .vmem S8192 .i32) (h3 : a3.IsWhole) (a4 : Memref sig .tc .vmem S1x100 .f32) (h4 : a4.IsWhole)
    (a5 : Memref sig .tc .vmem S1x1x1 .f32) (h5 : a5.IsWhole) (hc : ¬cond0_0 i)
    (x0 : Vec F S8192x100 .f32) (x1 : Vec F S8192 .i32) (x2 : Vec F S1x100 .f32) (xo : Vec F S1x1x1 .f32) :
    out0_B_3 c i a2 h2 a3 h3 a4 h4 a5 h5 hc x0 x1 x2 xo = k0_pay1 (k0_pay3 x0 x1 x2) xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  simp only [View.readAt_eq_ld, h2.read_unread, h3.read_unread, h4.read_unread, h5.read_unread,
    View.ld_unit_zero (S := S8192x100) hz2, View.ld_unit_zero (S := S8192) hz1, View.ld_unit_zero (S := S1x100) hz2,
    View.ld_unit_zero (S := S1x1x1) hz3]

/-- At the first point of a core's run the body first stores zero into the accumulator block, reads it back,
    and adds the block's partial sum to it. -/
theorem out_A (c : Dev nD) (i : grid0.Coords) (a2 : Memref sig .tc .vmem S8192x100 .f32) (h2 : a2.IsWhole)
    (a3 : Memref sig .tc .vmem S8192 .i32) (h3 : a3.IsWhole) (a4 : Memref sig .tc .vmem S1x100 .f32) (h4 : a4.IsWhole)
    (a5 : Memref sig .tc .vmem S1x1x1 .f32) (h5 : a5.IsWhole) (hc : cond0_0 i)
    (x0 : Vec F S8192x100 .f32) (x1 : Vec F S8192 .i32) (x2 : Vec F S1x100 .f32) :
    out0_A_3 c i a2 h2 a3 h3 a4 h4 a5 h5 hc x0 x1 x2 = k0_pay1 (k0_pay3 x0 x1 x2) (k0_pay2 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S8192x100) hz2, View.ld_unit_zero (S := S8192) hz1, View.ld_unit_zero (S := S1x100) hz2,
    View.ld_unit_zero (S := S1x1x1) hz3]

end Cert.KernelIdeal.Pieces

end
-- ==== Proof.Accum.lean ====
/-
  The accumulator across the grid. Each core runs 32 consecutive points; at the first of them the body
  resets its one-entry accumulator block to zero, and at every point it adds the block's partial sum. So after
  point n the block holds the sum of the partial sums of the points 32·(n / 32), …, n — by induction on n.
-/
import proofs.«421414_j25031069401300_3_alg».proof.Proof.BodyPieces
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Accum

open Cert.KernelIdeal Cert.KernelIdeal.Gen

variable (m : (ℓ : Loc nD τ sig) → Buf (Elt Ideal) ℓ)

/-- The three input blocks at a point, at their literal types. -/
abbrev logitsAt (c : Dev nD) (t : Fin cfg0.N) : Vec Ideal S8192x100 .f32 := iblk m c 0 t
abbrev labelsAt (c : Dev nD) (t : Fin cfg0.N) : Vec Ideal S8192 .i32 := iblk m c 1 t
abbrev weightsAt (c : Dev nD) (t : Fin cfg0.N) : Vec Ideal S1x100 .f32 := iblk m c 2 t

/-- The partial sum point j adds to the accumulator (zero for a number that is no grid point). -/
def part (c : Dev nD) (j : ℕ) : EReal :=
  if h : j < cfg0.N then
    k0_pay3 (F := Ideal) (logitsAt m c ⟨j, h⟩) (labelsAt m c ⟨j, h⟩) (weightsAt m c ⟨j, h⟩) (ix2 (0 : Fin 1) (0 : Fin 1))
  else 0

theorem part_eq (c : Dev nD) (j : ℕ) (h : j < cfg0.N) :
    part m c j
      = k0_pay3 (F := Ideal) (logitsAt m c ⟨j, h⟩) (labelsAt m c ⟨j, h⟩) (weightsAt m c ⟨j, h⟩) (ix2 (0 : Fin 1) (0 : Fin 1)) :=
  dif_pos h

/-- The update: the accumulator block's entry plus the partial sum's one entry. -/
theorem update_apply (s : FVec Ideal S1x1 .f32) (a : Vec Ideal S1x1x1 .f32) (y : S1x1x1.Idx) :
    k0_pay1 (F := Ideal) s a y = a y + s (ix2 (0 : Fin 1) (0 : Fin 1)) := by
  unfold k0_pay1
  show shapeCast S1x1x1 a shapeCasts_S1x1x1_S1x1x1 y + shapeCast S1x1x1 s shapeCasts_S1x1_S1x1x1 y = _
  rw [shapeCast_self]
  congr 1
  refine shapeCast_apply _ _ _ (ix2 (0 : Fin 1) (0 : Fin 1)) ?_
  rw [Shape.rowMajor_val_two, Shape.rowMajor_val_three]
  have h0 : (y 0).val < 1 := (y 0).isLt
  have h1 : (y 1).val < 1 := (y 1).isLt
  have h2 : (y 2).val < 1 := (y 2).isLt
  show 0 * 1 + 0 = ((y 0).val * 1 + (y 1).val) * 1 + (y 2).val
  omega

/-- The reset value is zero. -/
theorem reset_apply (y : S1x1x1.Idx) : k0_pay2 (F := Ideal) y = 0 := by
  unfold k0_pay2
  show Ideal.ofBits .f32 0x00000000#32 = 0
  exact Ideal.ofBits_zero_f32

/-- After point n the accumulator block holds the partial sums of its core's points up to n. -/
theorem outsAt_eq (c : Dev nD) : ∀ (n : ℕ) (h : n < cfg0.N) (y : S1x1x1.Idx),
    outsAt0 m c n h y = ∑ k ∈ Finset.range (n % 32 + 1), part m c (32 * (n / 32) + k) := by
  intro n
  induction n using Nat.strong_induction_on with
  | _ n ih =>
    intro h y
    by_cases h0 : n % 32 = 0
    · have e : outsAt0 m c n h
          = k0_pay1 (k0_pay3 (logitsAt m c ⟨n, h⟩) (labelsAt m c ⟨n, h⟩) (weightsAt m c ⟨n, h⟩)) (k0_pay2 (F := Ideal)) :=
        (outsAt0_A m c ⟨n, h⟩ h0).trans
          (Pieces.out_A (F := Ideal) c (grid0.coords ⟨n, h⟩) (ms0_0 ⟨n, h⟩) (hs0_0 ⟨n, h⟩) (ms0_1 ⟨n, h⟩) (hs0_1 ⟨n, h⟩)
            (ms0_2 ⟨n, h⟩) (hs0_2 ⟨n, h⟩) (ms0_3 ⟨n, h⟩) (hs0_3 ⟨n, h⟩) ((hcond0_0 ⟨n, h⟩).mpr h0)
            (logitsAt m c ⟨n, h⟩) (labelsAt m c ⟨n, h⟩) (weightsAt m c ⟨n, h⟩))
      rw [e, update_apply, reset_apply, zero_add, ← part_eq m c n h]
      have hq : 32 * (n / 32) = n := by omega
      simp only [h0, zero_add, Finset.sum_range_one, add_zero, hq]
    · have hB : n - 1 < cfg0.N := Nat.lt_of_le_of_lt (Nat.sub_le _ _) h
      have e : outsAt0 m c n h
          = k0_pay1 (k0_pay3 (logitsAt m c ⟨n, h⟩) (labelsAt m c ⟨n, h⟩) (weightsAt m c ⟨n, h⟩)) (outsAt0 m c (n - 1) hB) :=
        (outsAt0_B m c ⟨n, h⟩ h0).trans
          (Pieces.out_B (F := Ideal) c (grid0.coords ⟨n, h⟩) (ms0_0 ⟨n, h⟩) (hs0_0 ⟨n, h⟩) (ms0_1 ⟨n, h⟩) (hs0_1 ⟨n, h⟩)
            (ms0_2 ⟨n, h⟩) (hs0_2 ⟨n, h⟩) (ms0_3 ⟨n, h⟩) (hs0_3 ⟨n, h⟩) (fun hh => h0 ((hcond0_0 ⟨n, h⟩).mp hh))
            (logitsAt m c ⟨n, h⟩) (labelsAt m c ⟨n, h⟩) (weightsAt m c ⟨n, h⟩) (outsAt0 m c (n - 1) hB))
      rw [e, update_apply, ih (n - 1) (by omega) hB y, ← part_eq m c n h]
      have h1 : (n - 1) % 32 + 1 = n % 32 := by omega
      have h2 : (n - 1) / 32 = n / 32 := by omega
      have h3 : 32 * (n / 32) + n % 32 = n := by omega
      rw [h1, h2, Finset.sum_range_succ, h3]

/-- So when a core's last point has run, its accumulator block holds the sum of its 32 partial sums. -/
theorem core_total (c : Dev nD) (p : Fin 2) (h : 32 * p.val + 31 < cfg0.N) (y : S1x1x1.Idx) :
    outsAt0 m c (32 * p.val + 31) h y = ∑ k ∈ Finset.range 32, part m c (32 * p.val + k) := by
  rw [outsAt_eq m c _ h y]
  have h1 : (32 * p.val + 31) % 32 + 1 = 32 := by omega
  have h2 : (32 * p.val + 31) / 32 = p.val := by omega
  rw [h1, h2]

end Cert.KernelIdeal.Accum

end
-- ==== Proof.KernelBlocks.lean ====
/-
  The blocks the kernel's windows read at grid point t, as entries of the arrays the region finds:
  rows 8192·t … 8192·t + 8191 of the logits and of the labels, and the one row of weights at every point.
  The label array the region reads is the input clamped to [0, 99], which leaves a class index as it is;
  the weight array is the input's 100 entries laid out as one row.
-/
import proofs.«421414_j25031069401300_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.Tactic Idealize.ShloMosaic.ValueIdx
open Idealize.ShloMosaic.StableHlo

namespace Cert.KernelIdeal.Blocks

open Cert.KernelIdeal Cert.KernelIdeal.Gen

variable {F : FTy → Type} [FloatOps F]
variable (m : (ℓ : Loc nD τ sig) → Buf (Elt F) ℓ)

/-! ## The index maps over the grid: point t of the 2 × 32 grid is core t / 32, step t % 32 -/

/-- The logits window's block index at point t is (t, 0): 32·(t / 32) + t % 32 = t. -/
theorem idx_logits : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The label window's block index at point t is t. -/
theorem idx_labels : ∀ t : Fin cfg0.N, win0_1.index t (0 : Fin 1) = t.val :=
  (by decide +kernel : ∀ t : Fin grid0.N, win0_1.index t (0 : Fin 1) = t.val)
/-- The weight window's block index is (0, 0) at every point. -/
theorem idx_weights : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- The output window's block index at point t is (t / 32, 0, 0): the core's own entry. -/
theorem idx_out : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)

theorem point_lt (t : Fin cfg0.N) : t.val < 64 := lt_of_lt_of_eq t.isLt (show cfg0.N = 64 from N_0)

/-- Row r of block t is row 8192·t + r of the whole array. -/
abbrev rowOf (t : Fin cfg0.N) (r : Fin 8192) : Fin 524288 :=
  ⟨8192 * t.val + r.val, by have := point_lt t; have := r.isLt; omega⟩

/-! ## The three input blocks at a point -/

/-- Entry (r, k) of the logits block at point t is entry (8192·t + r, k) of the logits. -/
theorem logits_block (c : Dev nD) (t : Fin cfg0.N) (r : Fin 8192) (k : Fin 100) :
    (iblk m c 0 t : Vec F S8192x100 .f32) (ix2 r k) = (V m c main_arg0 : Vec F S524288x100 .f32) (ix2 (rowOf t r) k) := by
  unfold iblk
  rw [View.read_apply]
  show V m c main_arg0 _ = V m c main_arg0 _
  congr 1
  funext a
  apply Fin.ext
  match a with
  | ⟨0, _⟩ => show win0_0.index t 0 * 8192 + 1 * r.val = 8192 * t.val + r.val; rw [(idx_logits t).1]; omega
  | ⟨1, _⟩ => show win0_0.index t 1 * 100 + 1 * k.val = k.val; rw [(idx_logits t).2]; omega

/-- Entry r of the label block at point t is entry 8192·t + r of the label array the region reads. -/
theorem labels_block (c : Dev nD) (t : Fin cfg0.N) (r : Fin 8192) :
    (iblk m c 1 t : Vec F S8192 .i32) (ix1 r) = (V m c main_v0 : Vec F S524288 .i32) (ix1 (rowOf t r)) := by
  unfold iblk
  rw [View.read_apply]
  show V m c main_v0 _ = V m c main_v0 _
  congr 1
  funext a
  apply Fin.ext
  match a with
  | ⟨0, _⟩ => show win0_1.index t 0 * 8192 + 1 * r.val = 8192 * t.val + r.val; rw [idx_labels t]; omega

/-- Entry (0, k) of the weight block at any point is entry (0, k) of the one-row weight array. -/
theorem weights_block (c : Dev nD) (t : Fin cfg0.N) (k : Fin 100) :
    (iblk m c 2 t : Vec F S1x100 .f32) (ix2 (0 : Fin 1) k) = (V m c main_v1 : Vec F S1x100 .f32) (ix2 (0 : Fin 1) k) := by
  unfold iblk
  rw [View.read_apply]
  show V m c main_v1 _ = V m c main_v1 _
  congr 1
  funext a
  apply Fin.ext
  match a with
  | ⟨0, _⟩ => show win0_2.index t 0 * 1 + 1 * 0 = 0; rw [(idx_weights t).1]
  | ⟨1, _⟩ => show win0_2.index t 1 * 100 + 1 * k.val = k.val; rw [(idx_weights t).2]; omega

/-! ## The arrays the host lines before the region write -/

/-- The label array the region reads: the input clamped below by 0 and above by 99, entry by entry. -/
theorem V_labels_apply (c : Dev nD) (i : S524288.Idx) :
    (V m c main_v0 : Vec F S524288 .i32) i
      = IntOp.minsi 99#32 (IntOp.maxsi 0#32 ((m ((c : Thread nD τ).loc main_arg1) : Vec F S524288 .i32) i)) := by
  have e : (V m c main_v0 : Vec F S524288 .i32)
      = minsi (broadcastInDim S524288 ![] bcast_S_S524288 (constantI S_ 32 99#32))
          (maxsi (broadcastInDim S524288 ![] bcast_S_S524288 (constantI S_ 32 0#32)) (m ((c : Thread nD τ).loc main_arg1))) := by
    dsimp only [V, V0]
    simp only [hostOps0, hostOps0_1, hostOps0_2, List.flatten_cons, List.flatten_nil, List.append_nil, List.cons_append,
      List.nil_append]
    after_results
    rfl
  rw [e]
  rfl

/-- Clamping a class index to [0, 99] leaves it as it is. -/
theorem clamp_class : ∀ k : Fin 100, IntOp.minsi 99#32 (IntOp.maxsi 0#32 (BitVec.ofNat 32 k.val)) = BitVec.ofNat 32 k.val := by
  decide +kernel

/-- The weight array the region reads: the 100 input weights as one row. -/
theorem V_weights_apply (c : Dev nD) (k : Fin 100) :
    (V m c main_v1 : Vec F S1x100 .f32) (ix2 (0 : Fin 1) k) = (m ((c : Thread nD τ).loc main_arg2) : Vec F S100 .f32) (ix1 k) := by
  have e : (V m c main_v1 : Vec F S1x100 .f32)
      = shapeCast S1x100 (m ((c : Thread nD τ).loc main_arg2) : Vec F S100 .f32) shapeCasts_S100_S1x100 := by
    dsimp only [V, V0]
    simp only [hostOps0, hostOps0_1, hostOps0_2, List.flatten_cons, List.flatten_nil, List.append_nil, List.cons_append,
      List.nil_append]
    after_results
    rfl
  rw [e]
  refine shapeCast_apply _ _ _ (ix1 k) ?_
  rw [Shape.rowMajor_val_one, Shape.rowMajor_val_two]
  show k.val = 0 * 100 + k.val
  omega

end Cert.KernelIdeal.Blocks

end
-- ==== Proof.KernelArray.lean ====
/-
  From the accumulator block to the program's result. Each core writes its accumulator block back once, after its
  last point, into its own entry of a 2-entry array; the host lines after the region add the two entries to zero and
  divide by the number of rows.
-/
import proofs.«421414_j25031069401300_3_alg».proof.Proof.Accum
import proofs.«421414_j25031069401300_3_alg».proof.Proof.KernelBlocks
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.Tactic Idealize.ShloMosaic.ValueIdx
open Idealize.ShloMosaic.StableHlo
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg)

/-- The region's result array: entry (p, 0, 0) is the sum of core p's 32 partial sums. -/
def totals (c : Dev nD) : Vec Ideal S2x1x1 .f32 :=
  fun j => ∑ k ∈ Finset.range 32, Accum.part m c (32 * (j 0).val + k)

/-- A core's write-back, at its last point, writes its total: its block is its own entry of the array. -/
theorem flushed_eq (c : Dev nD) (t : Fin cfg0.N) (hf : (cfg0.win 3).flush t = true) :
    (dats m 0 c).flushed 3 t = ((cfg0.win 3).blk t).view.read (Elt Ideal) (totals m c) := by
  have h31 : t.val % 32 = 31 := (flush0_3 t).mp hf
  show (cfg0.win 3).cut (grid0.coords t) ((dats m 0 c).after 3 t) = _
  rw [after0_3]
  funext y
  rw [View.read_apply]
  show outsAt0 m c t.val t.isLt _ = ∑ k ∈ Finset.range 32, Accum.part m c (32 * ((((cfg0.win 3).blk t).view.emb y) 0).val + k)
  have he : ((((cfg0.win 3).blk t).view.emb y) 0).val = t.val / 32 := by
    show win0_3.index t (0 : Fin 3) * 1 + 1 * (y 0).val = t.val / 32
    have hy : (y 0).val < 1 := (y 0).isLt
    rw [(Blocks.idx_out t).1]; omega
  rw [he, Accum.outsAt_eq m c t.val t.isLt _]
  have h1 : t.val % 32 + 1 = 32 := by omega
  rw [h1]

/-- An entry of the array is in point t's block iff each coordinate is in the block's range on its axis. -/
theorem mem_blk (t : Fin cfg0.N) (i : S2x1x1.Idx) :
    i ∈ ((cfg0.win 3).blk t).view.set
      ↔ ∀ a : Fin 3, win0_3.index t a * S1x1x1.size a ≤ (i a).val ∧ (i a).val < win0_3.index t a * S1x1x1.size a + S1x1x1.size a := by
  show i ∈ ((View.whole main_v2).slice (win0_3.rect t)).set ↔ _
  rw [View.set_slice_whole, Rect.mem_set_unit]
  exact Iff.rfl

/-- Entry (p, 0, 0) is written back by core p's last point, 32·p + 31. -/
theorem covered (i : S2x1x1.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 1 := (i 2).isLt
  have hN : cfg0.N = 64 := N_0
  have hlt : 32 * (i 0).val + 31 < cfg0.N := by omega
  refine ⟨⟨32 * (i 0).val + 31, hlt⟩, (flush0_3 _).mpr (by show (32 * (i 0).val + 31) % 32 = 31; omega), ?_⟩
  rw [mem_blk]
  obtain ⟨e0, e1, e2⟩ := Blocks.idx_out ⟨32 * (i 0).val + 31, hlt⟩
  have e0' : win0_3.index ⟨32 * (i 0).val + 31, hlt⟩ (0 : Fin 3) = (32 * (i 0).val + 31) / 32 := e0
  intro a
  match a with
  | ⟨0, _⟩ =>
    show win0_3.index ⟨32 * (i 0).val + 31, hlt⟩ (0 : Fin 3) * 1 ≤ (i 0).val
      ∧ (i 0).val < win0_3.index ⟨32 * (i 0).val + 31, hlt⟩ (0 : Fin 3) * 1 + 1
    omega
  | ⟨1, _⟩ =>
    show win0_3.index ⟨32 * (i 0).val + 31, hlt⟩ (1 : Fin 3) * 1 ≤ (i 1).val
      ∧ (i 1).val < win0_3.index ⟨32 * (i 0).val + 31, hlt⟩ (1 : Fin 3) * 1 + 1
    omega
  | ⟨2, _⟩ =>
    show win0_3.index ⟨32 * (i 0).val + 31, hlt⟩ (2 : Fin 3) * 1 ≤ (i 2).val
      ∧ (i 2).val < win0_3.index ⟨32 * (i 0).val + 31, hlt⟩ (2 : Fin 3) * 1 + 1
    omega

/-- So the region's result array ends holding the two cores' totals. -/
theorem final (c : Dev nD) : (dats m 0 c).arrAt 3 cfg0.N = totals m c :=
  (dats m 0 c).arrAt_eq_of_cover 3 (totals m c) (flushed_eq m c) (fun i => covered i)

/-- The program's result after the host lines that follow the region: the two totals added to zero, divided by
    the number of rows. -/
theorem tail_value (c : Dev nD) :
    (Pipeline.afterTail₀ cfgs (dats m) 0 (V0 m) [hostOps1] c main_v4 : Vec Ideal S_ .f32)
      = fun _ => Ideal.div (Ideal.ofBits .f32 0x00000000#32 + ∑ j : S2x1x1.Idx, totals m c j) (Ideal.ofBits .f32 0x49000000#32) := by
  unfold Pipeline.afterTail₀
  show StableHlo.after hostOps1 _ (Proc.devRef .tc main_v4) = _
  after_results
  have ew : Pipeline.withArrays (cfgs 0).spec c (V0 m c) (fun w => (dats m 0 c).arrAt w (cfgs 0).N) (Proc.devRef .tc main_v2)
      = totals m c :=
    (Pipeline.withArrays_arr spec0 launch0.win.arr_inj c (V0 m c) (fun w => (dats m 0 c).arrAt w cfg0.N) 3).trans (final m c)
  rw [ew]
  funext x
  show Ideal.div (Ideal.hostReduceAdd reducesTo_S2x1x1_S_d0_1_2 (totals m c) (Ideal.ofBits .f32 0x00000000#32) x)
      (Ideal.ofBits .f32 0x49000000#32) = _
  rw [Ideal.hostReduceAdd_total reducesTo_S2x1x1_S_d0_1_2 (fun b => b.elim0)]

end Cert.KernelIdeal.Value

end
-- ==== Proof.BlockLoss.lean ====
/-
  What one grid point contributes: the body's arithmetic on a block of 8192 rows, read over the extended
  reals, is the sum over the block's rows of the kernel's loss of each row.
-/
import proofs.«421414_j25031069401300_3_alg».proof.Proof.Gen.KernelIdeal.Skeleton
import proofs.«421414_j25031069401300_3_alg».proof.Proof.LossSpec
import Idealize.ShloMosaic.Lib.ValueIdx
import Idealize.ShloMosaic.Lib.ValueLayout
import Idealize.ShloMosaic.Lib.Pipeline.Value
import Idealize.ShloMosaic.PureOps.Ideal.Laws

noncomputable section

namespace Cert.BlockLoss

open Idealize.ShloMosaic Idealize.ShloMosaic.ValueIdx Cert.LossSpec Cert.KernelIdeal Cert.KernelIdeal.Gen

/-! ## Two layout operations of a kept reduced axis, read at an index -/

/-- An `[a]` array cast to the column `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two sums of the body, read at an index -/

/-- A sum along the lanes of a `[8192, 100]` block, read at row `r`, is the sum over the row's hundred entries. -/
theorem lane_sum (src : FVec Ideal S8192x100 .f32) (hφ : FKind.Formats .f32)
    (hacc : (0x00000000#32 : BitVec 32) = 0x00000000#32) (r : Fin 8192) :
    multiReduction .add [1] S8192 src 0x00000000#32 reduces_S8192x100_S8192 hφ hacc (ix1 r)
      = ∑ c : Fin 100, src (ix2 r c) :=
  (Ideal.multiReduction_add_single src 0x00000000#32 reduces_S8192x100_S8192 hφ hacc (ix1 r)).trans
    (Finset.sum_congr rfl fun c _ => congrArg src (funext fun a => by
      match a with
      | ⟨0, _⟩ => exact Fin.ext rfl
      | ⟨1, _⟩ => exact Fin.ext rfl))

/-- A sum down the one column of a `[8192, 1]` block, read at its one entry, is the sum over the rows. -/
theorem col_sum (src : FVec Ideal S8192x1 .f32) (hφ : FKind.Formats .f32)
    (hacc : (0x00000000#32 : BitVec 32) = 0x00000000#32) (u : Fin 1) :
    multiReduction .add [0] S1 src 0x00000000#32 reduces_S8192x1_S1 hφ hacc (ix1 u)
      = ∑ r : Fin 8192, src (ix2 r (0 : Fin 1)) :=
  (Ideal.multiReduction_add_single src 0x00000000#32 reduces_S8192x1_S1 hφ hacc (ix1 u)).trans
    (Finset.sum_congr rfl fun r _ => congrArg src (funext fun a => by
      match a with
      | ⟨0, _⟩ => exact Fin.ext rfl
      | ⟨1, _⟩ => exact Fin.ext (by have := u.isLt; show u.val = 0; omega)))

/-! ## The selects of the body, read at an index -/

/-- `arith.select` on a decided bit is the `if` on the decision. -/
theorem select_ofBool {α : Type} (b : Bool) (x y : α) :
    Scalar.select (BitVec.ofBool b) x y = if b = true then x else y := by
  cases b
  · exact (select_zero x y).trans (if_neg Bool.false_ne_true).symm
  · exact (select_one x y).trans (if_pos rfl).symm

/-- The exponentials kept where the logit is positive and zeroed elsewhere, at an index: `posExp` of the logit. -/
theorem xpos_apply {s : Shape} (x : FVec Ideal s .f32) (i : s.Idx) :
    select (cmpf .ogt x (broadcast s (Scalar.ofBits (F := Ideal) .f32 0x00000000#32))) (exp x)
        (broadcast s (Scalar.ofBits (F := Ideal) .f32 0x00000000#32)) i
      = posExp (x i) := by
  show Scalar.select (Ideal.cmp .ogt (x i) (Ideal.ofBits .f32 0x00000000#32)) (Ideal.exp (x i))
      (Ideal.ofBits .f32 0x00000000#32) = _
  rw [Ideal.ofBits_zero_f32]
  unfold posExp
  refine (select_ofBool (decide (0 < x i)) _ _).trans ?_
  simp only [decide_eq_true_eq]

/-- The label's column broadcast over the lanes, at `(r, c)`: row `r`'s label. -/
theorem label_apply (x1 : Vec Ideal S8192 .i32) (r : Fin 8192) (c : Fin 100) :
    broadcastTo S8192x100 (shapeCast S8192x1 (shapeCast S8192 x1 shapeCasts_S8192_S8192) shapeCasts_S8192_S8192x1)
        broadcasts_S8192x1_S8192x100 (ix2 r c) = x1 (ix1 r) :=
  (broadcastTo_a1_ab_apply _ _ r c).trans
    ((shapeCast_a_a1_apply _ _ r (0 : Fin 1)).trans (congrFun (shapeCast_self x1 _) (ix1 r)))

/-- The lane counter at `(r, c)`: the word of `c`. -/
theorem lane_apply (r : Fin 8192) (c : Fin 100) :
    iota .tc S8192x100 32 [1] iota_S8192x100_d1_w32 (ix2 r c) = BitVec.ofNat 32 c.val := by
  show BitVec.ofNat 32 (0 * 100 + c.val) = _
  rw [Nat.zero_mul, Nat.zero_add]

/-- A block masked to the label's lane, at `(r, c)`: the block's entry where `c` is row `r`'s label, zero elsewhere. -/
theorem masked_apply (x1 : Vec Ideal S8192 .i32) (A : FVec Ideal S8192x100 .f32) (r : Fin 8192) (c : Fin 100) :
    select (cmpi .eq (iota .tc S8192x100 32 [1] iota_S8192x100_d1_w32)
          (broadcastTo S8192x100 (shapeCast S8192x1 (shapeCast S8192 x1 shapeCasts_S8192_S8192) shapeCasts_S8192_S8192x1)
            broadcasts_S8192x1_S8192x100))
        A (broadcast S8192x100 (Scalar.ofBits (F := Ideal) .f32 0x00000000#32)) (ix2 r c)
      = if BitVec.ofNat 32 c.val = x1 (ix1 r) then A (ix2 r c) else 0 := by
  show Scalar.select (IntOp.cmpi .eq (iota .tc S8192x100 32 [1] iota_S8192x100_d1_w32 (ix2 r c))
        (broadcastTo S8192x100 (shapeCast S8192x1 (shapeCast S8192 x1 shapeCasts_S8192_S8192) shapeCasts_S8192_S8192x1)
          broadcasts_S8192x1_S8192x100 (ix2 r c)))
      (A (ix2 r c)) (Ideal.ofBits .f32 0x00000000#32) = _
  rw [Ideal.ofBits_zero_f32, lane_apply r c, label_apply x1 r c]
  refine (select_ofBool (BitVec.ofNat 32 c.val == x1 (ix1 r)) _ _).trans ?_
  simp only [beq_iff_eq]

/-- The one row of the weight block broadcast over the rows, at `(r, c)`: the weight of class `c`. -/
theorem weight_apply (x2 : Vec Ideal S1x100 .f32) (r : Fin 8192) (c : Fin 100) :
    broadcastTo S8192x100 (shapeCast S1x100 (shapeCast S1x100 x2 shapeCasts_S1x100_S1x100) shapeCasts_S1x100_S1x100)
        broadcasts_S1x100_S8192x100 (ix2 r c) = x2 (ix2 (0 : Fin 1) c) :=
  (broadcastTo_1b_ab_apply _ _ r c).trans
    (congrFun ((shapeCast_self _ shapeCasts_S1x100_S1x100).trans (shapeCast_self x2 shapeCasts_S1x100_S1x100))
      (ix2 (0 : Fin 1) c))

/-- A lane sum kept as a column, at `(r, u)`: the sum over row `r`'s hundred entries. -/
theorem col_lane_sum (src : FVec Ideal S8192x100 .f32) (hφ : FKind.Formats .f32)
    (hacc : (0x00000000#32 : BitVec 32) = 0x00000000#32) (r : Fin 8192) (u : Fin 1) :
    shapeCast S8192x1 (multiReduction .add [1] S8192 src 0x00000000#32 reduces_S8192x100_S8192 hφ hacc)
        shapeCasts_S8192_S8192x1 (ix2 r u) = ∑ c : Fin 100, src (ix2 r c) :=
  (shapeCast_a_a1_apply _ _ r u).trans (lane_sum src hφ hacc r)

/-! ## One row, and the block -/

/-- The body's last pointwise steps, at an index, over whatever the four columns read there. -/
theorem row_assemble (W P Q D : FVec Ideal S8192x1 .f32) (i : S8192x1.Idx) (w p q d : EReal)
    (hW : W i = w) (hP : P i = p) (hQ : Q i = q) (hD : D i = d) :
    log (addf (divf (mulf W (subf P Q)) D) (broadcast S8192x1 (Scalar.ofBits (F := Ideal) .f32 0x33D6BF95#32))) i
      = Ideal.log (Ideal.div (w * (p - q)) d + epsE) := by
  subst hW hP hQ hD
  rfl

/-- The block's partial sum, at its one entry: the sum over the 8192 rows of the kernel's per-row loss, a row's
    logits the block's row, its label the block's label entry, the weights the one row of the weight block. -/
theorem block_loss (x0 : Vec Ideal S8192x100 .f32) (x1 : Vec Ideal S8192 .i32) (x2 : Vec Ideal S1x100 .f32) :
    k0_pay3 (F := Ideal) x0 x1 x2 (ix2 (0 : Fin 1) (0 : Fin 1))
      = ∑ r : Fin 8192, kRow (fun c => x0 (ix2 r c)) (x1 (ix1 r)) (fun c => x2 (ix2 (0 : Fin 1) c)) := by
  unfold k0_pay3
  refine (shapeCast_a_1a_apply _ _ (0 : Fin 1) (0 : Fin 1)).trans ?_
  refine (col_sum _ _ _ (0 : Fin 1)).trans ?_
  refine Finset.sum_congr rfl fun r _ => ?_
  unfold kRow
  refine row_assemble _ _ _ _ _ _ _ _ _ ?_ ?_ ?_ ?_
  · -- the label's weight
    refine (col_lane_sum _ _ _ r (0 : Fin 1)).trans (Finset.sum_congr rfl fun c _ => ?_)
    refine (masked_apply x1 _ r c).trans ?_
    rw [weight_apply x2 r c]
  · -- the sum of the positive exponentials
    refine (col_lane_sum _ _ _ r (0 : Fin 1)).trans (Finset.sum_congr rfl fun c _ => ?_)
    exact xpos_apply x0 (ix2 r c)
  · -- the label's positive exponential
    refine (col_lane_sum _ _ _ r (0 : Fin 1)).trans (Finset.sum_congr rfl fun c _ => ?_)
    refine (masked_apply x1 _ r c).trans ?_
    rw [xpos_apply x0 (ix2 r c)]
  · -- the sum of all the exponentials
    exact col_lane_sum _ _ _ r (0 : Fin 1)

end Cert.BlockLoss

end
-- ==== Proof.KernelValue.lean ====
/-
  The kernel's result in terms of its inputs. With the logits and weights real and the labels class indices, point t's
  partial sum is the sum over rows 8192·t … 8192·t + 8191 of the kernel's loss of each row (the clamp of a class index
  is the index, the weight row is the weight input); the two cores' totals together are the sum over all 64 points; and
  the sum over the 64 blocks is the sum over all rows. So the program's result is the mean over all rows.
-/
import proofs.«421414_j25031069401300_3_alg».proof.Proof.KernelArray
import proofs.«421414_j25031069401300_3_alg».proof.Proof.BlockLoss
import proofs.«421414_j25031069401300_3_alg».proof.Proof.LossMath

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.LossSpec

variable (m : (ℓ : Loc nD τ sig) → Buf (Elt Ideal) ℓ) (ρ : Dev nD → PrngReg)

theorem kRow_congr {p p' : Fin 100 → EReal} {t t' : BitVec 32} {w w' : Fin 100 → EReal}
    (hp : p = p') (ht : t = t') (hw : w = w') : kRow p t w = kRow p' t' w' := by
  subst hp ht hw; rfl

/-- Row r of block t, as a row of the whole array. -/
abbrev rowAt (t : Fin 64) (r : Fin 8192) : Fin 524288 :=
  ⟨8192 * t.val + r.val, by have := t.isLt; have := r.isLt; omega⟩

/-- Point t's partial sum is the sum of the kernel's per-row losses of its 8192 rows, in terms of the inputs. -/
theorem part_value (c : Dev nD) (P : Fin 524288 → Fin 100 → ℝ) (W : Fin 100 → ℝ) (T : Fin 524288 → Fin 100)
    (hP : ∀ R k, (m ((c : Thread nD τ).loc main_arg0) : Vec Ideal S524288x100 .f32) (ix2 R k) = ((P R k : ℝ) : EReal))
    (hW : ∀ k, (m ((c : Thread nD τ).loc main_arg2) : Vec Ideal S100 .f32) (ix1 k) = ((W k : ℝ) : EReal))
    (hT : ∀ R, (m ((c : Thread nD τ).loc main_arg1) : Vec Ideal S524288 .i32) (ix1 R) = BitVec.ofNat 32 (T R).val)
    (t : Fin 64) :
    Accum.part m c t.val
      = ∑ r : Fin 8192, kRow (fun k => ((P (rowAt t r) k : ℝ) : EReal)) (BitVec.ofNat 32 (T (rowAt t r)).val)
          (fun k => ((W k : ℝ) : EReal)) := by
  have ht : t.val < cfg0.N := lt_of_lt_of_eq t.isLt (show cfg0.N = 64 from N_0).symm
  rw [Accum.part_eq m c t.val ht, Cert.BlockLoss.block_loss]
  refine Finset.sum_congr rfl fun r _ => ?_
  have e0 : (V m c main_arg0 : Vec Ideal S524288x100 .f32) = m ((c : Thread nD τ).loc main_arg0) := V_main_arg0 m c
  refine kRow_congr (funext fun k => ?_) ?_ (funext fun k => ?_)
  · refine (Blocks.logits_block m c ⟨t.val, ht⟩ r k).trans ?_
    rw [e0]
    exact hP _ k
  · refine ((Blocks.labels_block m c ⟨t.val, ht⟩ r).trans (Blocks.V_labels_apply m c _)).trans ?_
    rw [hT]
    exact Blocks.clamp_class _
  · exact ((Blocks.weights_block m c ⟨t.val, ht⟩ k).trans (Blocks.V_weights_apply m c k)).trans (hW k)

/-- The two entries of the result array, one per core. -/
def coreEquiv : Fin 2 ≃ S2x1x1.Idx where
  toFun p := ix3 p (0 : Fin 1) (0 : Fin 1)
  invFun j := j 0
  left_inv p := rfl
  right_inv j := by
    funext a
    match a with
    | ⟨0, _⟩ => rfl
    | ⟨1, _⟩ => exact Fin.ext (by have h : (j 1).val < 1 := (j 1).isLt; show 0 = (j 1).val; omega)
    | ⟨2, _⟩ => exact Fin.ext (by have h : (j 2).val < 1 := (j 2).isLt; show 0 = (j 2).val; omega)

/-- The two cores' totals together are the sum of all 64 partial sums. -/
theorem sum_totals (c : Dev nD) : ∑ j : S2x1x1.Idx, totals m c j = ∑ n ∈ Finset.range 64, Accum.part m c n := by
  rw [← Fintype.sum_equiv coreEquiv (fun p => totals m c (coreEquiv p)) (totals m c) (fun _ => rfl), Fin.sum_univ_two]
  show (∑ k ∈ Finset.range 32, Accum.part m c (32 * 0 + k)) + (∑ k ∈ Finset.range 32, Accum.part m c (32 * 1 + k)) = _
  rw [show (64 : ℕ) = 32 + 32 from rfl, Finset.sum_range_add]
  simp only [Nat.mul_zero, Nat.zero_add, Nat.mul_one]

/-- The program's result: the mean over all rows of the kernel's loss of each row. -/
theorem result_value (c : Dev nD) (P : Fin 524288 → Fin 100 → ℝ) (W : Fin 100 → ℝ) (T : Fin 524288 → Fin 100)
    (hP : ∀ R k, (m ((c : Thread nD τ).loc main_arg0) : Vec Ideal S524288x100 .f32) (ix2 R k) = ((P R k : ℝ) : EReal))
    (hW : ∀ k, (m ((c : Thread nD τ).loc main_arg2) : Vec Ideal S100 .f32) (ix1 k) = ((W k : ℝ) : EReal))
    (hT : ∀ R, (m ((c : Thread nD τ).loc main_arg1) : Vec Ideal S524288 .i32) (ix1 R) = BitVec.ofNat 32 (T R).val) :
    (Pipeline.afterTail₀ cfgs (dats m) 0 (V0 m) [hostOps1] c main_v4 : Vec Ideal S_ .f32)
      = fun _ => meanLoss fun R =>
          kRow (fun k => ((P R k : ℝ) : EReal)) (BitVec.ofNat 32 (T R).val) (fun k => ((W k : ℝ) : EReal)) := by
  rw [tail_value]
  funext _
  unfold meanLoss
  rw [Ideal.ofBits_zero_f32, zero_add, sum_totals, Cert.LossMath.sum_rows_blocks, ← Fin.sum_univ_eq_sum_range]
  exact congrArg (fun s => Ideal.div s rowsE)
    (Finset.sum_congr rfl fun t _ => part_value m c P W T hP hW hT t)

/-- The run: every weakly fair execution ends with the result at the frame run's value and the arguments unchanged. -/
theorem run : θ_run defs (onTc (τ := τ) (main (F := Ideal))) ⟨m, fun _ => 0, ρ⟩ fun r => ∀ c : Dev nD,
      r.2.mem ((c : Thread nD τ).loc main_v4) = Pipeline.afterTail₀ cfgs (dats m) 0 (V0 m) [hostOps1] c main_v4
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨(h c).2 main_v4 (Pipeline.mem_restRefs_of main_v4 (by decide) (by decide)),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Value

end
-- ==== Proof.lean ====
/-
  A per-row masked-softmax log loss, averaged over 524288 rows of 100 logits.

  For a row with logits p, label t and class weights w, the kernel forms
      w_t · (Σ_c e⁺(p_c) − e⁺(p_t)) / Σ_c e^(p_c),        e⁺(x) = e^x for x > 0 and 0 otherwise,
  adds a small constant and takes the logarithm; two cores each sum their 32 blocks of 8192 rows into one entry,
  and the host adds the two entries and divides by the number of rows. The reference shifts each row by its
  maximum M, forms  Σ_c e^(p_c − M) · (1 − [t = c]) · w_t · [p_c > 0] / Σ_c e^(p_c − M),  adds the same constant,
  takes the logarithm, and takes the mean over all rows.

  Over the extended reals the two agree when every logit and weight is a real number and every label is a class
  index in [0, 100): the factor e^(−M) > 0 is common to the reference's numerator and divisor; the mask
  1 − [t = c] takes the label's entry out of the sum; the kernel's clamp of a label to [0, 99] and the reference's
  wrap of a negative label both leave a class index as it is; and a sum over all rows may be grouped into blocks in
  any order. (For a label outside [0, 100) the two programs differ: the kernel clamps it to a class whose entry it
  removes, the reference's one-hot row is empty and its gathered weight is another class's.)

  The kernel's frames are the generated ones; the reference's frame is its generated run with the result dropped;
  the ideal pass rewrote nothing. For the value claim the kernel's result is read off its frame run: what each
  control case leaves in the accumulator block (BodyPieces), the induction over the grid (Accum), the write-back and
  the host lines after the region (KernelArray), the blocks as entries of the inputs (KernelBlocks), the body's
  arithmetic on a block as a sum of per-row losses (BlockLoss), together (KernelValue); the reference's result is
  read back operation by operation (RefValue); the precondition is decoded entry by entry (PreFacts); the algebra
  is in LossMath over the terms of LossSpec.
-/
import proofs.«421414_j25031069401300_3_alg».proof.Defs
import proofs.«421414_j25031069401300_3_alg».proof.Proof.Gen.Kernel.Frame
import proofs.«421414_j25031069401300_3_alg».proof.Proof.Gen.KernelIdeal.Frame
import proofs.«421414_j25031069401300_3_alg».proof.Proof.Gen.ReferenceIdeal.Run
import proofs.«421414_j25031069401300_3_alg».proof.Proof.Gen.ReferenceIdeal.Read
import proofs.«421414_j25031069401300_3_alg».proof.Proof.Gen.Pre_finite_inputs
import proofs.«421414_j25031069401300_3_alg».proof.Proof.PreFacts
import proofs.«421414_j25031069401300_3_alg».proof.Proof.LossMath
import proofs.«421414_j25031069401300_3_alg».proof.Proof.RefValue
import proofs.«421414_j25031069401300_3_alg».proof.Proof.KernelValue

noncomputable section

namespace Cert.Proof

open Idealize.ShloMosaic Idealize.SL.Sem Idealize.ShloMosaic.ValueIdx Cert.LossSpec

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end at the mean over all rows of the per-row loss: the kernel's of its own form, the reference's of
    its own form with each row's maximum some real number, and the two forms agree row by row. -/
theorem algebraic : Cert.algebraic_KernelIdeal_ReferenceIdeal := by
  intro m ρ m' ρ' hpre hagree
  have hw : ∀ c : Dev Cert.KernelIdeal.nD, ∃ (P : Fin 524288 → Fin 100 → ℝ) (W : Fin 100 → ℝ) (T : Fin 524288 → Fin 100),
      (∀ R k, (m ((c.tc : Thread Cert.KernelIdeal.nD Cert.KernelIdeal.τ).loc Cert.KernelIdeal.main_arg0)
          : Vec Ideal Cert.KernelIdeal.S524288x100 .f32) (ix2 R k) = ((P R k : ℝ) : EReal))
      ∧ (∀ k, (m ((c.tc : Thread Cert.KernelIdeal.nD Cert.KernelIdeal.τ).loc Cert.KernelIdeal.main_arg2)
          : Vec Ideal Cert.KernelIdeal.S100 .f32) (ix1 k) = ((W k : ℝ) : EReal))
      ∧ (∀ R, (m ((c.tc : Thread Cert.KernelIdeal.nD Cert.KernelIdeal.τ).loc Cert.KernelIdeal.main_arg1)
          : Vec Ideal Cert.KernelIdeal.S524288 .i32) (ix1 R) = BitVec.ofNat 32 (T R).val) := fun c => by
    obtain ⟨⟨P, hP⟩, ⟨W, hW⟩, ⟨T, hT⟩⟩ := Cert.PreFacts.pre_facts _ _ _ (hpre c)
    exact ⟨P, W, T, hP, hW, hT⟩
  choose P W T hP hW hT using hw
  refine ⟨fun c => fun _ => meanLoss fun R =>
      kRow (fun k => ((P c R k : ℝ) : EReal)) (BitVec.ofNat 32 (T c R).val) (fun k => ((W c k : ℝ) : EReal)), ?_, ?_⟩
  · exact (θ_run Cert.KernelIdeal.defs _ _).mono
      (fun _ h c => ⟨(h c).1.trans (Cert.KernelIdeal.Value.result_value m c (P c) (W c) (T c) (hP c) (hW c) (hT c)), (h c).2⟩)
      (Cert.KernelIdeal.Value.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v30_eq, (hagree c).1, (hagree c).2.1, (hagree c).2.2]
    obtain ⟨M, hM⟩ := Cert.RefValue.ref_value _ _ _ (P c) (hP c) (W c) (hW c) (T c) (hT c)
    refine hM.trans (funext fun _ => ?_)
    unfold meanLoss
    exact congrArg (fun s => Ideal.div s rowsE)
      (Finset.sum_congr rfl fun R _ => (Cert.LossMath.kRow_eq_rRow (P c R) (T c R) (W c) (M R)).symm)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
